-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x50000 : Shape := ⟨2, ![2048, 50000]⟩
abbrev S2048 : Shape := ⟨1, ![2048]⟩
abbrev S7 : Shape := ⟨1, ![7]⟩
abbrev S_ : Shape := ⟨0, ![]⟩

class Facts : Prop where
  bcast_S_S2048x50000 : S_.BroadcastsInDim S2048x50000 (![] : Fin 0 → Fin S2048x50000.rank)
  reducesTo_S2048x50000_S_d0_1 : S2048x50000.ReducesTo [0, 1] S_
  h_S_ : 0 < S_.numel
  bcast_S_S7 : S_.BroadcastsInDim S7 (![] : Fin 0 → Fin S7.rank)
  reducesTo_S7_S_d0 : S7.ReducesTo [0] S_

variable [Facts]

def fn {F : FTy → Type} [FloatOps F] (main_arg0 : FVec F S2048x50000 .f32) (main_arg1 : IVec S2048 32) (main_arg2 : FVec F S7 .f32) : IVec S_ 1 :=
  let main_v0 : FVec F S2048x50000 .f32 := Host.absf main_arg0
  let main_cst : FVec F S_ .f32 := constant S_ .f32 0x7F800000#32
  let main_v1 : FVec F S2048x50000 .f32 := broadcastInDim S2048x50000 ![] bcast_S_S2048x50000 main_cst
  let main_v2 : IVec S2048x50000 1 := cmpf .olt main_v0 main_v1
  let main_c : IVec S_ 1 := constantI S_ 1 1#1
  let main_v3 : IVec S_ 1 := (fun x v => Host.reduce IntOp.andi x v reducesTo_S2048x50000_S_d0_1 h_S_) main_v2 main_c
  let main_v4 : FVec F S7 .f32 := Host.absf main_arg2
  let main_cst_0 : FVec F S_ .f32 := constant S_ .f32 0x7F800000#32
  let main_v5 : FVec F S7 .f32 := broadcastInDim S7 ![] bcast_S_S7 main_cst_0
  let main_v6 : IVec S7 1 := cmpf .olt main_v4 main_v5
  let main_c_1 : IVec S_ 1 := constantI S_ 1 1#1
  let main_v7 : IVec S_ 1 := (fun x v => Host.reduce IntOp.andi x v reducesTo_S7_S_d0 h_S_) main_v6 main_c_1
  let main_v8 : IVec S_ 1 := andi main_v3 main_v7
  main_v8
-- ==== Kernel.lean ====
abbrev S2048x50000 : Shape := ⟨2, ![2048, 50000]⟩
abbrev S2048 : Shape := ⟨1, ![2048]⟩
abbrev S7 : Shape := ⟨1, ![7]⟩
abbrev S_ : Shape := ⟨0, ![]⟩
abbrev S2048x1 : Shape := ⟨2, ![2048, 1]⟩
abbrev S2048x2 : Shape := ⟨2, ![2048, 2]⟩
abbrev S0 : Shape := ⟨1, ![0]⟩
abbrev S1 : Shape := ⟨1, ![1]⟩
abbrev S32x50000 : Shape := ⟨2, ![32, 50000]⟩
abbrev S32x1 : Shape := ⟨2, ![32, 1]⟩
abbrev S32 : Shape := ⟨1, ![32]⟩

abbrev nBuf : Space → Nat
  | .hbm => 114
  | .vmem => 4
  | .smem => 0
  | _ => 0

abbrev bufTy : (tb : Table) → Fin (tcTables nBuf tb) → BufTy
  | .hbm, ⟨0, _⟩ => ⟨S2048x50000, .f32⟩
  | .hbm, ⟨1, _⟩ => ⟨S2048, .i32⟩
  | .hbm, ⟨2, _⟩ => ⟨S7, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2048x1, .i32⟩
  | .hbm, ⟨20, _⟩ => ⟨S2048x2, .i32⟩
  | .hbm, ⟨21, _⟩ => ⟨S2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S0, .f32⟩
  | .hbm, ⟨41, _⟩ => ⟨S7, .f32⟩
  | .hbm, ⟨42, _⟩ => ⟨S1, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S1, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048, .f32⟩
  | .hbm, ⟨52, _⟩ => ⟨S1, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S1, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S1, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048, .f32⟩
  | .hbm, ⟨67, _⟩ => ⟨S1, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048, .f32⟩
  | .hbm, ⟨72, _⟩ => ⟨S1, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S_, .f32⟩
  | .hbm, ⟨78, _⟩ => ⟨S2048, .f32⟩
  | .hbm, ⟨79, _⟩ => ⟨S2048, .f32⟩
  | .hbm, ⟨80, _⟩ => ⟨S_, .i32⟩
  | .hbm, ⟨81, _⟩ => ⟨S2048, .i32⟩
  | .hbm, ⟨82, _⟩ => ⟨S2048, .i1⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .i32⟩
  | .hbm, ⟨87, _⟩ => ⟨S_, .i32⟩
  | .hbm, ⟨88, _⟩ => ⟨S2048, .i32⟩
  | .hbm, ⟨89, _⟩ => ⟨S2048, .i1⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S2048, .i32⟩
  | .hbm, ⟨94, _⟩ => ⟨S2048x1, .i32⟩
  | .hbm, ⟨95, _⟩ => ⟨S2048x1, .i32⟩
  | .hbm, ⟨96, _⟩ => ⟨S2048x2, .i32⟩
  | .hbm, ⟨97, _⟩ => ⟨S2048, .f32⟩
  | .hbm, ⟨98, _⟩ => ⟨S_, .f32⟩
  | .hbm, ⟨99, _⟩ => ⟨S2048, .f32⟩
  | .hbm, ⟨100, _⟩ => ⟨S2048, .f32⟩
  | .hbm, ⟨101, _⟩ => ⟨S2048, .f32⟩
  | .hbm, ⟨102, _⟩ => ⟨S2048x1, .f32⟩
  | .hbm, ⟨103, _⟩ => ⟨S2048, .f32⟩
  | .hbm, ⟨104, _⟩ => ⟨S2048, .f32⟩
  | .hbm, ⟨105, _⟩ => ⟨S2048, .f32⟩
  | .hbm, ⟨106, _⟩ => ⟨S2048, .f32⟩
  | .hbm, ⟨107, _⟩ => ⟨S2048, .f32⟩
  | .hbm, ⟨108, _⟩ => ⟨S2048, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .local _ .vmem, ⟨0, _⟩ => ⟨S32x50000, .f32⟩
  | .local _ .vmem, ⟨1, _⟩ => ⟨S32x50000, .f32⟩
  | .local _ .vmem, ⟨2, _⟩ => ⟨S32x1, .f32⟩
  | .local _ .vmem, ⟨3, _⟩ => ⟨S32x1, .f32⟩
  | _, _ => ⟨S2048x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v16 : Ref sig .tc := ⟨.hbm, 37, rfl⟩
abbrev main_call2_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_call0_v0 : Ref sig .tc := ⟨.hbm, 44, rfl⟩
abbrev main_call2_call0_v1 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_call1_v0 : Ref sig .tc := ⟨.hbm, 49, rfl⟩
abbrev main_call2_call1_v1 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_call2_v0 : Ref sig .tc := ⟨.hbm, 54, rfl⟩
abbrev main_call2_call2_v1 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_call3_v0 : Ref sig .tc := ⟨.hbm, 59, rfl⟩
abbrev main_call2_call3_v1 : Ref sig .tc := ⟨.hbm, 60, rfl⟩
abbrev main_call2_v14 : Ref sig .tc := ⟨.hbm, 61, rfl⟩
abbrev main_call2_v15 : Ref sig .tc := ⟨.hbm, 62, rfl⟩
abbrev main_call2_v16 : Ref sig .tc := ⟨.hbm, 63, rfl⟩
abbrev main_call2_call4_v0 : Ref sig .tc := ⟨.hbm, 64, rfl⟩
abbrev main_call2_call4_v1 : Ref sig .tc := ⟨.hbm, 65, rfl⟩
abbrev main_call2_v17 : Ref sig .tc := ⟨.hbm, 66, rfl⟩
abbrev main_call2_v18 : Ref sig .tc := ⟨.hbm, 67, rfl⟩
abbrev main_call2_v19 : Ref sig .tc := ⟨.hbm, 68, rfl⟩
abbrev main_call2_call5_v0 : Ref sig .tc := ⟨.hbm, 69, rfl⟩
abbrev main_call2_call5_v1 : Ref sig .tc := ⟨.hbm, 70, rfl⟩
abbrev main_call2_v20 : Ref sig .tc := ⟨.hbm, 71, rfl⟩
abbrev main_call2_v21 : Ref sig .tc := ⟨.hbm, 72, rfl⟩
abbrev main_call2_v22 : Ref sig .tc := ⟨.hbm, 73, rfl⟩
abbrev main_call2_call6_v0 : Ref sig .tc := ⟨.hbm, 74, rfl⟩
abbrev main_call2_call6_v1 : Ref sig .tc := ⟨.hbm, 75, rfl⟩
abbrev main_v17 : Ref sig .tc := ⟨.hbm, 76, rfl⟩
abbrev main_cst_6 : Ref sig .tc := ⟨.hbm, 77, rfl⟩
abbrev main_v18 : Ref sig .tc := ⟨.hbm, 78, rfl⟩
abbrev main_v19 : Ref sig .tc := ⟨.hbm, 79, rfl⟩
abbrev main_c_7 : Ref sig .tc := ⟨.hbm, 80, rfl⟩
abbrev main_v20 : Ref sig .tc := ⟨.hbm, 81, rfl⟩
abbrev main_v21 : Ref sig .tc := ⟨.hbm, 82, rfl⟩
abbrev main_c_8 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_c_9 : Ref sig .tc := ⟨.hbm, 87, rfl⟩
abbrev main_v25 : Ref sig .tc := ⟨.hbm, 88, rfl⟩
abbrev main_v26 : Ref sig .tc := ⟨.hbm, 89, rfl⟩
abbrev main_c_10 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_11 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_cst_12 : Ref sig .tc := ⟨.hbm, 109, rfl⟩
abbrev main_v44 : Ref sig .tc := ⟨.hbm, 110, rfl⟩
abbrev main_cst_13 : Ref sig .tc := ⟨.hbm, 111, rfl⟩
abbrev main_v45 : Ref sig .tc := ⟨.hbm, 112, rfl⟩
abbrev main_v46 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x50000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  slices_S7_S0_0 : S7.Slices ![0] S0
  slices_S7_S7_0 : S7.Slices ![0] S7
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  inb_S32x50000_S32x50000_0_0 : ∀ a, (![0, 0] : Fin 2 → Nat) a + S32x50000.size a ≤ S32x50000.size a
  h_S32x50000 : 0 < S32x50000.numel
  reduces_S32x50000_S32 : S32x50000.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S2048x1_S2048 : S2048x1.ShapeCasts S2048
  reducesTo_S2048_S_d0 : S2048.ReducesTo [0] S_
  h_S_ : 0 < S_.numel
  gather_S2048x50000_S2048x2_S2048_n_01_n_n_01_1_11_wf : GatherDims.WF S2048x50000 S2048x2 S2048 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50000.size a ≤ S2048x50000.size a
  hwx0_0 : ∀ i : grid0.Coords, EltTy.bits .f32 = 32 ∨ (Rect.block (s := S2048x50000) S32x50000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S2048x1.size a
  hwx0_1 : ∀ i : grid0.Coords, EltTy.bits .f32 = 32 ∨ (Rect.block (s := S2048x1) S32x1.size (cc0_transform_1 i) (hinb0_1 i)).WholeWords (EltTy.packing .f32)

variable [Facts₀]

def gather_S2048x50000_S2048x2_S2048_n_01_n_n_01_1_11 : GatherDims S2048x50000 S2048x2 S2048 where
  offsetDims := []
  collapsedSliceDims := [0, 1]
  operandBatchingDims := []
  startIndicesBatchingDims := []
  startIndexMap := [0, 1]
  indexVectorDim := 1
  sliceSizes := ![1, 1]
  wf := gather_S2048x50000_S2048x2_S2048_n_01_n_n_01_1_11_wf

abbrev win0_0 : Pipeline.Window sig grid0 :=
  Pipeline.Window.ofSpec (Memref.whole main_arg0) S32x50000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S32x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x50000 : Shape := ⟨2, ![2048, 50000]⟩
abbrev S2048 : Shape := ⟨1, ![2048]⟩
abbrev S7 : Shape := ⟨1, ![7]⟩
abbrev S_ : Shape := ⟨0, ![]⟩
abbrev S2048x1 : Shape := ⟨2, ![2048, 1]⟩
abbrev S2048x2 : Shape := ⟨2, ![2048, 2]⟩
abbrev S0 : Shape := ⟨1, ![0]⟩
abbrev S1 : Shape := ⟨1, ![1]⟩

abbrev nBuf : Space → Nat
  | .hbm => 114
  | .vmem => 0
  | .smem => 0
  | _ => 0

abbrev bufTy : (tb : Table) → Fin (tcTables nBuf tb) → BufTy
  | .hbm, ⟨0, _⟩ => ⟨S2048x50000, .f32⟩
  | .hbm, ⟨1, _⟩ => ⟨S2048, .i32⟩
  | .hbm, ⟨2, _⟩ => ⟨S7, .f32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1, .i32⟩
  | .hbm, ⟨19, _⟩ => ⟨S2048x2, .i32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S0, .f32⟩
  | .hbm, ⟨40, _⟩ => ⟨S7, .f32⟩
  | .hbm, ⟨41, _⟩ => ⟨S1, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S1, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048, .f32⟩
  | .hbm, ⟨51, _⟩ => ⟨S1, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S1, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S1, .f32⟩
  | .hbm, ⟨62, _⟩ => ⟨S_, .f32⟩
  | .hbm, ⟨63, _⟩ => ⟨S2048, .f32⟩
  | .hbm, ⟨64, _⟩ => ⟨S2048, .f32⟩
  | .hbm, ⟨65, _⟩ => ⟨S2048, .f32⟩
  | .hbm, ⟨66, _⟩ => ⟨S1, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S2048, .f32⟩
  | .hbm, ⟨71, _⟩ => ⟨S1, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S_, .f32⟩
  | .hbm, ⟨80, _⟩ => ⟨S2048x50000, .f32⟩
  | .hbm, ⟨81, _⟩ => ⟨S2048x50000, .f32⟩
  | .hbm, ⟨82, _⟩ => ⟨S2048x50000, .f32⟩
  | .hbm, ⟨83, _⟩ => ⟨S2048, .i32⟩
  | .hbm, ⟨84, _⟩ => ⟨S_, .f32⟩
  | .hbm, ⟨85, _⟩ => ⟨S2048, .f32⟩
  | .hbm, ⟨86, _⟩ => ⟨S_, .i32⟩
  | .hbm, ⟨87, _⟩ => ⟨S2048, .i32⟩
  | .hbm, ⟨88, _⟩ => ⟨S2048, .i1⟩
  | .hbm, ⟨89, _⟩ => ⟨S_, .i32⟩
  | .hbm, ⟨90, _⟩ => ⟨S2048, .i32⟩
  | .hbm, ⟨91, _⟩ => ⟨S2048, .i32⟩
  | .hbm, ⟨92, _⟩ => ⟨S2048, .i32⟩
  | .hbm, ⟨93, _⟩ => ⟨S_, .i32⟩
  | .hbm, ⟨94, _⟩ => ⟨S2048, .i32⟩
  | .hbm, ⟨95, _⟩ => ⟨S2048, .i1⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .i32⟩
  | .hbm, ⟨100, _⟩ => ⟨S2048x1, .i32⟩
  | .hbm, ⟨101, _⟩ => ⟨S2048x1, .i32⟩
  | .hbm, ⟨102, _⟩ => ⟨S2048x2, .i32⟩
  | .hbm, ⟨103, _⟩ => ⟨S2048, .f32⟩
  | .hbm, ⟨104, _⟩ => ⟨S2048, .f32⟩
  | .hbm, ⟨105, _⟩ => ⟨S2048, .f32⟩
  | .hbm, ⟨106, _⟩ => ⟨S2048, .f32⟩
  | .hbm, ⟨107, _⟩ => ⟨S2048, .f32⟩
  | .hbm, ⟨108, _⟩ => ⟨S2048, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S2048x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_4 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_call0_v0 : Ref sig .tc := ⟨.hbm, 43, rfl⟩
abbrev main_call2_call0_v1 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_call1_v0 : Ref sig .tc := ⟨.hbm, 48, rfl⟩
abbrev main_call2_call1_v1 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_call2_v0 : Ref sig .tc := ⟨.hbm, 53, rfl⟩
abbrev main_call2_call2_v1 : Ref sig .tc := ⟨.hbm, 54, rfl⟩
abbrev main_call2_v11 : Ref sig .tc := ⟨.hbm, 55, rfl⟩
abbrev main_call2_v12 : Ref sig .tc := ⟨.hbm, 56, rfl⟩
abbrev main_call2_v13 : Ref sig .tc := ⟨.hbm, 57, rfl⟩
abbrev main_call2_call3_v0 : Ref sig .tc := ⟨.hbm, 58, rfl⟩
abbrev main_call2_call3_v1 : Ref sig .tc := ⟨.hbm, 59, rfl⟩
abbrev main_call2_v14 : Ref sig .tc := ⟨.hbm, 60, rfl⟩
abbrev main_call2_v15 : Ref sig .tc := ⟨.hbm, 61, rfl⟩
abbrev main_call2_v16 : Ref sig .tc := ⟨.hbm, 62, rfl⟩
abbrev main_call2_call4_v0 : Ref sig .tc := ⟨.hbm, 63, rfl⟩
abbrev main_call2_call4_v1 : Ref sig .tc := ⟨.hbm, 64, rfl⟩
abbrev main_call2_v17 : Ref sig .tc := ⟨.hbm, 65, rfl⟩
abbrev main_call2_v18 : Ref sig .tc := ⟨.hbm, 66, rfl⟩
abbrev main_call2_v19 : Ref sig .tc := ⟨.hbm, 67, rfl⟩
abbrev main_call2_call5_v0 : Ref sig .tc := ⟨.hbm, 68, rfl⟩
abbrev main_call2_call5_v1 : Ref sig .tc := ⟨.hbm, 69, rfl⟩
abbrev main_call2_v20 : Ref sig .tc := ⟨.hbm, 70, rfl⟩
abbrev main_call2_v21 : Ref sig .tc := ⟨.hbm, 71, rfl⟩
abbrev main_call2_v22 : Ref sig .tc := ⟨.hbm, 72, rfl⟩
abbrev main_call2_call6_v0 : Ref sig .tc := ⟨.hbm, 73, rfl⟩
abbrev main_call2_call6_v1 : Ref sig .tc := ⟨.hbm, 74, rfl⟩
abbrev main_v16 : Ref sig .tc := ⟨.hbm, 75, rfl⟩
abbrev main_cst_6 : Ref sig .tc := ⟨.hbm, 76, rfl⟩
abbrev main_v17 : Ref sig .tc := ⟨.hbm, 77, rfl⟩
abbrev main_v18 : Ref sig .tc := ⟨.hbm, 78, rfl⟩
abbrev main_cst_7 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_cst_8 : Ref sig .tc := ⟨.hbm, 84, rfl⟩
abbrev main_v23 : Ref sig .tc := ⟨.hbm, 85, rfl⟩
abbrev main_c_9 : Ref sig .tc := ⟨.hbm, 86, rfl⟩
abbrev main_v24 : Ref sig .tc := ⟨.hbm, 87, rfl⟩
abbrev main_v25 : Ref sig .tc := ⟨.hbm, 88, rfl⟩
abbrev main_c_10 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_c_11 : Ref sig .tc := ⟨.hbm, 93, rfl⟩
abbrev main_v29 : Ref sig .tc := ⟨.hbm, 94, rfl⟩
abbrev main_v30 : Ref sig .tc := ⟨.hbm, 95, rfl⟩
abbrev main_c_12 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_cst_13 : Ref sig .tc := ⟨.hbm, 109, rfl⟩
abbrev main_v43 : Ref sig .tc := ⟨.hbm, 110, rfl⟩
abbrev main_cst_14 : Ref sig .tc := ⟨.hbm, 111, rfl⟩
abbrev main_v44 : Ref sig .tc := ⟨.hbm, 112, rfl⟩
abbrev main_v45 : Ref sig .tc := ⟨.hbm, 113, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  slices_S7_S0_0 : S7.Slices ![0] S0
  slices_S7_S7_0 : S7.Slices ![0] S7
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  bcast_S_S2048x50000 : S_.BroadcastsInDim S2048x50000 (![] : Fin 0 → Fin S2048x50000.rank)
  reducesTo_S2048x50000_S2048_d1 : S2048x50000.ReducesTo [1] S2048
  h_S_ : 0 < S_.numel
  reducesTo_S2048_S_d0 : S2048.ReducesTo [0] S_
  gather_S2048x50000_S2048x2_S2048_n_01_n_n_01_1_11_wf : GatherDims.WF S2048x50000 S2048x2 S2048 [] [0, 1] [] [0, 1] [] 1 ![1, 1]

variable [Facts₀]

def gather_S2048x50000_S2048x2_S2048_n_01_n_n_01_1_11 : GatherDims S2048x50000 S2048x2 S2048 where
  offsetDims := []
  collapsedSliceDims := [0, 1]
  operandBatchingDims := []
  startIndicesBatchingDims := []
  startIndexMap := [0, 1]
  indexVectorDim := 1
  sliceSizes := ![1, 1]
  wf := gather_S2048x50000_S2048x2_S2048_n_01_n_n_01_1_11_wf

class Facts : Prop extends Facts₀ where

variable [Facts]
-- ==== Proof.RefRun.lean ====
/-
  The reference program as one straight line of host operations.

  @main of the reference calls three outlined functions: `clip` twice (a maximum with the broadcast lower bound, then a
  minimum with the broadcast upper bound) and `polyval` once (Horner's rule over the seven coefficients: the accumulator
  starts at zero and each step multiplies it by the argument and adds the next coefficient, broadcast). A call runs the
  callee's operations on the call's own buffers, so @main is the list `ops` below: @main's own operations in order with
  each call replaced by its callee's, 111 in all. From it the library's straight-line theorem gives the run: every weakly
  fair execution terminates and leaves each buffer at the fold of the operations over the launch contents.
-/
import proofs.«110019_j21844203667631_1_alg».proof.ReferenceIdeal
import proofs.«110019_j21844203667631_1_alg».proof.Proof.Gen.ReferenceIdeal
import Idealize.ShloMosaic.Lib.StableHlo.Run

noncomputable section

namespace Cert.ReferenceIdeal.Line

open Idealize.ShloMosaic Idealize.ShloMosaic.StableHlo Idealize.SL.Sem
open Cert.ReferenceIdeal Cert.ReferenceIdeal.Facts₀

variable {F : FTy → Type} [FloatOps F]

/-- The 111 operations: the index table of the diagonal gather (negative labels wrapped by the axis extent, the two
    columns joined), the gather, the two clips, Horner's rule, the scale by 30; then `exp (30 · logits)`, its row sums, the
    index table of the target gather (row number, wrapped label), that gather of the exponentials, and the loss's last
    lines (difference, `exp` of the numerator added, logarithm, difference, the sum over rows, the quotient by 2048, the
    sign). -/
abbrev ops : List (HloOp τ sig (Elt F)) :=
  ( StableHlo.nullary main_c (constantI S_ 32 0#32)
  :: StableHlo.unary main_c main_v0 (broadcastInDim S2048 ![] bcast_S_S2048 : (⟨S_, .i32⟩ : BufTy).Contents (Elt F) → (⟨S2048, .i32⟩ : BufTy).Contents (Elt F))
  :: StableHlo.binary main_arg1 main_v0 main_v1 (cmpi .slt : (⟨S2048, .i32⟩ : BufTy).Contents (Elt F) → (⟨S2048, .i32⟩ : BufTy).Contents (Elt F) → (⟨S2048, .i1⟩ : BufTy).Contents (Elt F))
  :: StableHlo.nullary main_c_0 (constantI S_ 32 2048#32)
  :: StableHlo.unary main_c_0 main_v2 (broadcastInDim S2048 ![] bcast_S_S2048 : (⟨S_, .i32⟩ : BufTy).Contents (Elt F) → (⟨S2048, .i32⟩ : BufTy).Contents (Elt F))
  :: StableHlo.binary main_arg1 main_v2 main_v3 (addi : (⟨S2048, .i32⟩ : BufTy).Contents (Elt F) → (⟨S2048, .i32⟩ : BufTy).Contents (Elt F) → (⟨S2048, .i32⟩ : BufTy).Contents (Elt F))
  :: StableHlo.ternary main_v1 main_v3 main_arg1 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_1 (constantI S_ 32 0#32)
  :: StableHlo.unary main_c_1 main_v5 (broadcastInDim S2048 ![] bcast_S_S2048 : (⟨S_, .i32⟩ : BufTy).Contents (Elt F) → (⟨S2048, .i32⟩ : BufTy).Contents (Elt F))
  :: StableHlo.binary main_arg1 main_v5 main_v6 (cmpi .slt : (⟨S2048, .i32⟩ : BufTy).Contents (Elt F) → (⟨S2048, .i32⟩ : BufTy).Contents (Elt F) → (⟨S2048, .i1⟩ : BufTy).Contents (Elt F))
  :: StableHlo.nullary main_c_2 (constantI S_ 32 50000#32)
  :: StableHlo.unary main_c_2 main_v7 (broadcastInDim S2048 ![] bcast_S_S2048 : (⟨S_, .i32⟩ : BufTy).Contents (Elt F) → (⟨S2048, .i32⟩ : BufTy).Contents (Elt F))
  :: StableHlo.binary main_arg1 main_v7 main_v8 (addi : (⟨S2048, .i32⟩ : BufTy).Contents (Elt F) → (⟨S2048, .i32⟩ : BufTy).Contents (Elt F) → (⟨S2048, .i32⟩ : BufTy).Contents (Elt F))
  :: StableHlo.ternary main_v6 main_v8 main_arg1 main_v9 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v4 main_v10 (broadcastInDim S2048x1 ![0] bcast_S2048_S2048x1_0 : (⟨S2048, .i32⟩ : BufTy).Contents (Elt F) → (⟨S2048x1, .i32⟩ : BufTy).Contents (Elt F))
  :: StableHlo.unary main_v9 main_v11 (broadcastInDim S2048x1 ![0] bcast_S2048_S2048x1_0 : (⟨S2048, .i32⟩ : BufTy).Contents (Elt F) → (⟨S2048x1, .i32⟩ : BufTy).Contents (Elt F))
  :: StableHlo.binary main_v10 main_v11 main_v12 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_arg0 main_v12 main_v13 ((fun x i => Host.gather gather_S2048x50000_S2048x2_S2048_n_01_n_n_01_1_11 x i) : (⟨S2048x50000, .f32⟩ : BufTy).Contents (Elt F) → (⟨S2048x2, .i32⟩ : BufTy).Contents (Elt F) → (⟨S2048, .f32⟩ : BufTy).Contents (Elt F))
  :: StableHlo.nullary main_cst (constant S_ .f32 0xBF7FFFFE#32)
  :: StableHlo.nullary main_cst_3 (constant S_ .f32 0x3F7FFFFE#32)
  :: StableHlo.TRef.unary (.of main_cst : StableHlo.TRef sig ⟨S_, .f32⟩) main_call0.v0 id
  :: StableHlo.TRef.unary main_call0.v0 main_call0.v1 (broadcastInDim S2048 ![] bcast_S_S2048)
  :: StableHlo.TRef.binary main_call0.v1 (.of main_v13 : StableHlo.TRef sig ⟨S2048, .f32⟩) main_call0.v2 maximumf
  :: StableHlo.TRef.unary (.of main_cst_3 : StableHlo.TRef sig ⟨S_, .f32⟩) main_call0.v3 id
  :: StableHlo.TRef.unary main_call0.v3 main_call0.v4 (broadcastInDim S2048 ![] bcast_S_S2048)
  :: StableHlo.TRef.binary main_call0.v4 main_call0.v2 main_call0.v5 minimumf
  :: StableHlo.nullary main_cst_4 (constant S_ .f32 0xBF800000#32)
  :: StableHlo.nullary main_cst_5 (constant S_ .f32 0x3F800000#32)
  :: StableHlo.TRef.unary (.of main_cst_4 : StableHlo.TRef sig ⟨S_, .f32⟩) main_call1.v0 id
  :: StableHlo.TRef.unary main_call1.v0 main_call1.v1 (broadcastInDim S2048 ![] bcast_S_S2048)
  :: StableHlo.TRef.binary main_call1.v1 (.of main_v14 : StableHlo.TRef sig ⟨S2048, .f32⟩) main_call1.v2 maximumf
  :: StableHlo.TRef.unary (.of main_cst_5 : StableHlo.TRef sig ⟨S_, .f32⟩) main_call1.v3 id
  :: StableHlo.TRef.unary main_call1.v3 main_call1.v4 (broadcastInDim S2048 ![] bcast_S_S2048)
  :: StableHlo.TRef.binary main_call1.v4 main_call1.v2 main_call1.v5 minimumf
  :: StableHlo.TRef.nullary main_call2.cst (constant S_ .f32 0x00000000#32)
  :: StableHlo.TRef.unary main_call2.cst main_call2.v0 (broadcastInDim S2048 ![] bcast_S_S2048)
  :: StableHlo.TRef.unary (.of main_arg2 : StableHlo.TRef sig ⟨S7, .f32⟩) main_call2.v1 (extractStridedSlice S0 ![0] · slices_S7_S0_0)
  :: StableHlo.TRef.unary (.of main_arg2 : StableHlo.TRef sig ⟨S7, .f32⟩) main_call2.v2 (extractStridedSlice S7 ![0] · slices_S7_S7_0)
  :: StableHlo.TRef.unary main_call2.v2 main_call2.v3 (extractStridedSlice S1 ![0] · slices_S7_S1_0)
  :: StableHlo.TRef.reshape main_call2.v3 main_call2.v4 rfl shapeCasts_S1_S_
  :: StableHlo.TRef.binary main_call2.v0 (.of main_v15 : StableHlo.TRef sig ⟨S2048, .f32⟩) main_call2.call0.v0 mulf
  :: StableHlo.TRef.unary main_call2.v4 main_call2.call0.v1 (broadcastInDim S2048 ![] bcast_S_S2048)
  :: StableHlo.TRef.binary main_call2.call0.v0 main_call2.call0.v1 main_call2.call0.v2 addf
  :: StableHlo.TRef.unary main_call2.v2 main_call2.v6 (extractStridedSlice S1 ![1] · slices_S7_S1_1)
  :: StableHlo.TRef.reshape main_call2.v6 main_call2.v7 rfl shapeCasts_S1_S_
  :: StableHlo.TRef.binary main_call2.call0.v2 (.of main_v15 : StableHlo.TRef sig ⟨S2048, .f32⟩) main_call2.call1.v0 mulf
  :: StableHlo.TRef.unary main_call2.v7 main_call2.call1.v1 (broadcastInDim S2048 ![] bcast_S_S2048)
  :: StableHlo.TRef.binary main_call2.call1.v0 main_call2.call1.v1 main_call2.call1.v2 addf
  :: StableHlo.TRef.unary main_call2.v2 main_call2.v9 (extractStridedSlice S1 ![2] · slices_S7_S1_2)
  :: StableHlo.TRef.reshape main_call2.v9 main_call2.v10 rfl shapeCasts_S1_S_
  :: StableHlo.TRef.binary main_call2.call1.v2 (.of main_v15 : StableHlo.TRef sig ⟨S2048, .f32⟩) main_call2.call2.v0 mulf
  :: StableHlo.TRef.unary main_call2.v10 main_call2.call2.v1 (broadcastInDim S2048 ![] bcast_S_S2048)
  :: StableHlo.TRef.binary main_call2.call2.v0 main_call2.call2.v1 main_call2.call2.v2 addf
  :: StableHlo.TRef.unary main_call2.v2 main_call2.v12 (extractStridedSlice S1 ![3] · slices_S7_S1_3)
  :: StableHlo.TRef.reshape main_call2.v12 main_call2.v13 rfl shapeCasts_S1_S_
  :: StableHlo.TRef.binary main_call2.call2.v2 (.of main_v15 : StableHlo.TRef sig ⟨S2048, .f32⟩) main_call2.call3.v0 mulf
  :: StableHlo.TRef.unary main_call2.v13 main_call2.call3.v1 (broadcastInDim S2048 ![] bcast_S_S2048)
  :: StableHlo.TRef.binary main_call2.call3.v0 main_call2.call3.v1 main_call2.call3.v2 addf
  :: StableHlo.TRef.unary main_call2.v2 main_call2.v15 (extractStridedSlice S1 ![4] · slices_S7_S1_4)
  :: StableHlo.TRef.reshape main_call2.v15 main_call2.v16 rfl shapeCasts_S1_S_
  :: StableHlo.TRef.binary main_call2.call3.v2 (.of main_v15 : StableHlo.TRef sig ⟨S2048, .f32⟩) main_call2.call4.v0 mulf
  :: StableHlo.TRef.unary main_call2.v16 main_call2.call4.v1 (broadcastInDim S2048 ![] bcast_S_S2048)
  :: StableHlo.TRef.binary main_call2.call4.v0 main_call2.call4.v1 main_call2.call4.v2 addf
  :: StableHlo.TRef.unary main_call2.v2 main_call2.v18 (extractStridedSlice S1 ![5] · slices_S7_S1_5)
  :: StableHlo.TRef.reshape main_call2.v18 main_call2.v19 rfl shapeCasts_S1_S_
  :: StableHlo.TRef.binary main_call2.call4.v2 (.of main_v15 : StableHlo.TRef sig ⟨S2048, .f32⟩) main_call2.call5.v0 mulf
  :: StableHlo.TRef.unary main_call2.v19 main_call2.call5.v1 (broadcastInDim S2048 ![] bcast_S_S2048)
  :: StableHlo.TRef.binary main_call2.call5.v0 main_call2.call5.v1 main_call2.call5.v2 addf
  :: StableHlo.TRef.unary main_call2.v2 main_call2.v21 (extractStridedSlice S1 ![6] · slices_S7_S1_6)
  :: StableHlo.TRef.reshape main_call2.v21 main_call2.v22 rfl shapeCasts_S1_S_
  :: StableHlo.TRef.binary main_call2.call5.v2 (.of main_v15 : StableHlo.TRef sig ⟨S2048, .f32⟩) main_call2.call6.v0 mulf
  :: StableHlo.TRef.unary main_call2.v22 main_call2.call6.v1 (broadcastInDim S2048 ![] bcast_S_S2048)
  :: StableHlo.TRef.binary main_call2.call6.v0 main_call2.call6.v1 main_call2.call6.v2 addf
  :: StableHlo.nullary main_cst_6 (constant S_ .f32 0x41F00000#32)
  :: StableHlo.unary main_cst_6 main_v17 (broadcastInDim S2048 ![] bcast_S_S2048 : (⟨S_, .f32⟩ : BufTy).Contents (Elt F) → (⟨S2048, .f32⟩ : BufTy).Contents (Elt F))
  :: StableHlo.binary main_v17 main_v16 main_v18 (mulf : (⟨S2048, .f32⟩ : BufTy).Contents (Elt F) → (⟨S2048, .f32⟩ : BufTy).Contents (Elt F) → (⟨S2048, .f32⟩ : BufTy).Contents (Elt F))
  :: StableHlo.nullary main_cst_7 (constant S_ .f32 0x41F00000#32)
  :: StableHlo.unary main_cst_7 main_v19 (broadcastInDim S2048x50000 ![] bcast_S_S2048x50000 : (⟨S_, .f32⟩ : BufTy).Contents (Elt F) → (⟨S2048x50000, .f32⟩ : BufTy).Contents (Elt F))
  :: StableHlo.binary main_v19 main_arg0 main_v20 (mulf : (⟨S2048x50000, .f32⟩ : BufTy).Contents (Elt F) → (⟨S2048x50000, .f32⟩ : BufTy).Contents (Elt F) → (⟨S2048x50000, .f32⟩ : BufTy).Contents (Elt F))
  :: StableHlo.unary main_v20 main_v21 (Host.exp : (⟨S2048x50000, .f32⟩ : BufTy).Contents (Elt F) → (⟨S2048x50000, .f32⟩ : BufTy).Contents (Elt F))
  :: StableHlo.nullary main_v22 (iotaInDim S2048 32 0)
  :: StableHlo.nullary main_cst_8 (constant S_ .f32 0x00000000#32)
  :: StableHlo.binary main_v21 main_cst_8 main_v23 ((fun x v => Host.reduceAdd x v reducesTo_S2048x50000_S2048_d1 h_S_) : (⟨S2048x50000, .f32⟩ : BufTy).Contents (Elt F) → (⟨S_, .f32⟩ : BufTy).Contents (Elt F) → (⟨S2048, .f32⟩ : BufTy).Contents (Elt F))
  :: StableHlo.nullary main_c_9 (constantI S_ 32 0#32)
  :: StableHlo.unary main_c_9 main_v24 (broadcastInDim S2048 ![] bcast_S_S2048 : (⟨S_, .i32⟩ : BufTy).Contents (Elt F) → (⟨S2048, .i32⟩ : BufTy).Contents (Elt F))
  :: StableHlo.binary main_v22 main_v24 main_v25 (cmpi .slt : (⟨S2048, .i32⟩ : BufTy).Contents (Elt F) → (⟨S2048, .i32⟩ : BufTy).Contents (Elt F) → (⟨S2048, .i1⟩ : BufTy).Contents (Elt F))
  :: StableHlo.nullary main_c_10 (constantI S_ 32 2048#32)
  :: StableHlo.unary main_c_10 main_v26 (broadcastInDim S2048 ![] bcast_S_S2048 : (⟨S_, .i32⟩ : BufTy).Contents (Elt F) → (⟨S2048, .i32⟩ : BufTy).Contents (Elt F))
  :: StableHlo.binary main_v22 main_v26 main_v27 (addi : (⟨S2048, .i32⟩ : BufTy).Contents (Elt F) → (⟨S2048, .i32⟩ : BufTy).Contents (Elt F) → (⟨S2048, .i32⟩ : BufTy).Contents (Elt F))
  :: StableHlo.ternary main_v25 main_v27 main_v22 main_v28 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_11 (constantI S_ 32 0#32)
  :: StableHlo.unary main_c_11 main_v29 (broadcastInDim S2048 ![] bcast_S_S2048 : (⟨S_, .i32⟩ : BufTy).Contents (Elt F) → (⟨S2048, .i32⟩ : BufTy).Contents (Elt F))
  :: StableHlo.binary main_arg1 main_v29 main_v30 (cmpi .slt : (⟨S2048, .i32⟩ : BufTy).Contents (Elt F) → (⟨S2048, .i32⟩ : BufTy).Contents (Elt F) → (⟨S2048, .i1⟩ : BufTy).Contents (Elt F))
  :: StableHlo.nullary main_c_12 (constantI S_ 32 50000#32)
  :: StableHlo.unary main_c_12 main_v31 (broadcastInDim S2048 ![] bcast_S_S2048 : (⟨S_, .i32⟩ : BufTy).Contents (Elt F) → (⟨S2048, .i32⟩ : BufTy).Contents (Elt F))
  :: StableHlo.binary main_arg1 main_v31 main_v32 (addi : (⟨S2048, .i32⟩ : BufTy).Contents (Elt F) → (⟨S2048, .i32⟩ : BufTy).Contents (Elt F) → (⟨S2048, .i32⟩ : BufTy).Contents (Elt F))
  :: StableHlo.ternary main_v30 main_v32 main_arg1 main_v33 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v28 main_v34 (broadcastInDim S2048x1 ![0] bcast_S2048_S2048x1_0 : (⟨S2048, .i32⟩ : BufTy).Contents (Elt F) → (⟨S2048x1, .i32⟩ : BufTy).Contents (Elt F))
  :: StableHlo.unary main_v33 main_v35 (broadcastInDim S2048x1 ![0] bcast_S2048_S2048x1_0 : (⟨S2048, .i32⟩ : BufTy).Contents (Elt F) → (⟨S2048x1, .i32⟩ : BufTy).Contents (Elt F))
  :: StableHlo.binary main_v34 main_v35 main_v36 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.binary main_v21 main_v36 main_v37 ((fun x i => Host.gather gather_S2048x50000_S2048x2_S2048_n_01_n_n_01_1_11 x i) : (⟨S2048x50000, .f32⟩ : BufTy).Contents (Elt F) → (⟨S2048x2, .i32⟩ : BufTy).Contents (Elt F) → (⟨S2048, .f32⟩ : BufTy).Contents (Elt F))
  :: StableHlo.binary main_v23 main_v37 main_v38 (subf : (⟨S2048, .f32⟩ : BufTy).Contents (Elt F) → (⟨S2048, .f32⟩ : BufTy).Contents (Elt F) → (⟨S2048, .f32⟩ : BufTy).Contents (Elt F))
  :: StableHlo.unary main_v18 main_v39 (Host.exp : (⟨S2048, .f32⟩ : BufTy).Contents (Elt F) → (⟨S2048, .f32⟩ : BufTy).Contents (Elt F))
  :: StableHlo.binary main_v39 main_v38 main_v40 (addf : (⟨S2048, .f32⟩ : BufTy).Contents (Elt F) → (⟨S2048, .f32⟩ : BufTy).Contents (Elt F) → (⟨S2048, .f32⟩ : BufTy).Contents (Elt F))
  :: StableHlo.unary main_v40 main_v41 (Host.log : (⟨S2048, .f32⟩ : BufTy).Contents (Elt F) → (⟨S2048, .f32⟩ : BufTy).Contents (Elt F))
  :: StableHlo.binary main_v18 main_v41 main_v42 (subf : (⟨S2048, .f32⟩ : BufTy).Contents (Elt F) → (⟨S2048, .f32⟩ : BufTy).Contents (Elt F) → (⟨S2048, .f32⟩ : BufTy).Contents (Elt F))
  :: StableHlo.nullary main_cst_13 (constant S_ .f32 0x00000000#32)
  :: StableHlo.binary main_v42 main_cst_13 main_v43 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F))
  :: StableHlo.nullary main_cst_14 (constant S_ .f32 0x45000000#32)
  :: StableHlo.binary main_v43 main_cst_14 main_v44 (Host.divf : (⟨S_, .f32⟩ : BufTy).Contents (Elt F) → (⟨S_, .f32⟩ : BufTy).Contents (Elt F) → (⟨S_, .f32⟩ : BufTy).Contents (Elt F))
  :: StableHlo.unary main_v44 main_v45 (Host.negf : (⟨S_, .f32⟩ : BufTy).Contents (Elt F) → (⟨S_, .f32⟩ : BufTy).Contents (Elt F))
  :: [] )

set_option maxHeartbeats 4000000 in
set_option maxRecDepth 4096 in
/-- @main is that line: the two windows of @main and the three functions' bodies unfolded, sequencing reassociated. -/
theorem main_eq (c : Dev nD) : main (F := F) c = seq ops := by
  simp only [main, main_part0, main_part1, fn_clip.body, fn_polyval.body, fn_eval_jaxpr.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.unary_bufs_sub ..,
    StableHlo.binary_bufs_sub ..,
    StableHlo.binary_bufs_sub ..,
    StableHlo.nullary_bufs_sub ..,
    StableHlo.nullary_bufs_sub ..,
    StableHlo.unary_bufs_sub ..,
    StableHlo.unary_bufs_sub ..,
    StableHlo.binary_bufs_sub ..,
    StableHlo.unary_bufs_sub ..,
    StableHlo.unary_bufs_sub ..,
    StableHlo.binary_bufs_sub ..,
    StableHlo.nullary_bufs_sub ..,
    StableHlo.nullary_bufs_sub ..,
    StableHlo.unary_bufs_sub ..,
    StableHlo.unary_bufs_sub ..,
    StableHlo.binary_bufs_sub ..,
    StableHlo.unary_bufs_sub ..,
    StableHlo.unary_bufs_sub ..,
    StableHlo.binary_bufs_sub ..,
    StableHlo.nullary_bufs_sub ..,
    StableHlo.unary_bufs_sub ..,
    StableHlo.unary_bufs_sub ..,
    StableHlo.unary_bufs_sub ..,
    StableHlo.unary_bufs_sub ..,
    StableHlo.reshape_bufs_sub ..,
    StableHlo.binary_bufs_sub ..,
    StableHlo.unary_bufs_sub ..,
    StableHlo.binary_bufs_sub ..,
    StableHlo.unary_bufs_sub ..,
    StableHlo.reshape_bufs_sub ..,
    StableHlo.binary_bufs_sub ..,
    StableHlo.unary_bufs_sub ..,
    StableHlo.binary_bufs_sub ..,
    StableHlo.unary_bufs_sub ..,
    StableHlo.reshape_bufs_sub ..,
    StableHlo.binary_bufs_sub ..,
    StableHlo.unary_bufs_sub ..,
    StableHlo.binary_bufs_sub ..,
    StableHlo.unary_bufs_sub ..,
    StableHlo.reshape_bufs_sub ..,
    StableHlo.binary_bufs_sub ..,
    StableHlo.unary_bufs_sub ..,
    StableHlo.binary_bufs_sub ..,
    StableHlo.unary_bufs_sub ..,
    StableHlo.reshape_bufs_sub ..,
    StableHlo.binary_bufs_sub ..,
    StableHlo.unary_bufs_sub ..,
    StableHlo.binary_bufs_sub ..,
    StableHlo.unary_bufs_sub ..,
    StableHlo.reshape_bufs_sub ..,
    StableHlo.binary_bufs_sub ..,
    StableHlo.unary_bufs_sub ..,
    StableHlo.binary_bufs_sub ..,
    StableHlo.unary_bufs_sub ..,
    StableHlo.reshape_bufs_sub ..,
    StableHlo.binary_bufs_sub ..,
    StableHlo.unary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.unary_bufs_sub ..,
    StableHlo.nullary_bufs_sub ..,
    StableHlo.nullary_bufs_sub ..,
    StableHlo.binary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.nullary_bufs_sub ..,
    StableHlo.unary_bufs_sub ..,
    StableHlo.binary_bufs_sub ..,
    StableHlo.nullary_bufs_sub ..,
    StableHlo.unary_bufs_sub ..,
    StableHlo.binary_bufs_sub ..,
    StableHlo.ternary_bufs_sub ..,
    StableHlo.unary_bufs_sub ..,
    StableHlo.unary_bufs_sub ..,
    StableHlo.binary_bufs_sub ..,
    StableHlo.binary_bufs_sub ..,
    StableHlo.binary_bufs_sub ..,
    StableHlo.unary_bufs_sub ..,
    StableHlo.binary_bufs_sub ..,
    StableHlo.unary_bufs_sub ..,
    StableHlo.binary_bufs_sub ..,
    StableHlo.nullary_bufs_sub ..,
    StableHlo.binary_bufs_sub ..,
    StableHlo.nullary_bufs_sub ..,
    StableHlo.binary_bufs_sub ..,
    StableHlo.unary_bufs_sub ..⟩

/-- From any memory with zero counters every weakly fair execution of the reference terminates, and every final state has
    each buffer at the fold of the 111 operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.Spec.lean ====
/-
  The loss both programs compute, as named functions of the three arguments — the logits `x` [2048, 50000], the labels
  [2048] (32-bit words) and the seven polynomial coefficients — and the two facts that join the programs.

  For row `r` with label `y`:  `a r = 30 · p(clip(clip(x[y', y''])))`, where `p` is the degree-6 polynomial by Horner's
  rule, `y'` and `y''` the label wrapped the NumPy way into the row axis (extent 2048) and the column axis (extent 50000),
  and the gather clamps what is still out of range;  `others r = (Σ_j exp (30 · x[r, j])) − exp (30 · x[r, y''])`;
  and the loss is `−(Σ_r (a r − log (exp (a r) + others r))) / 2048`.

  The reference takes the target term out of the matrix of exponentials, `(exp (30 · x))[r, y'']`; the kernel's program
  gathers the logit first and exponentiates it, `exp (30 · x[r, y''])`. A gather reads its operand at an index computed
  from the index table alone, so it commutes with any entrywise map: `gather_expScaled`, at every float instance and for
  every label word (no range is asked of the labels). The row sums are, in the reference, one host reduction over the
  column axis from the initial value 0; the kernel leaves them as a [2048, 1] column, `sumColumn`.
-/
import proofs.«110019_j21844203667631_1_alg».proof.ReferenceIdeal
import Idealize.ShloMosaic.PureOps.Ideal
import Idealize.ShloMosaic.PureOps.Ideal.Laws
import Idealize.ShloMosaic.Lib.Pipeline.Value
import Idealize.ShloMosaic.Lib.KernelVsHost

noncomputable section

namespace Cert.MarginLoss

open Idealize.ShloMosaic
open Cert.ReferenceIdeal Cert.ReferenceIdeal.Facts₀

variable {F : FTy → Type} [FloatOps F] [Cert.ReferenceIdeal.Facts]

/-- A signed index word wrapped the NumPy way for an axis of extent `n`: `i + n` where `i < 0`, else `i`. -/
def wrap (n : BitVec 32) (i : IVec S2048 32) : IVec S2048 32 :=
  select (cmpi .slt i (broadcastInDim S2048 ![] bcast_S_S2048 (constantI S_ 32 0#32)))
    (addi i (broadcastInDim S2048 ![] bcast_S_S2048 (constantI S_ 32 n))) i

/-- The [2048, 2] table of (row, column) index pairs: row words wrapped by 2048, column words by 50000. -/
def pairs (r c : IVec S2048 32) : IVec S2048x2 32 :=
  (fun a b => concatenate S2048x2 1 [⟨S2048x1, a⟩, ⟨S2048x1, b⟩] concatenates_S2048x1_S2048x1_S2048x2_d1)
    (broadcastInDim S2048x1 ![0] bcast_S2048_S2048x1_0 (wrap 2048#32 r))
    (broadcastInDim S2048x1 ![0] bcast_S2048_S2048x1_0 (wrap 50000#32 c))

/-- One entry of a [2048, 50000] matrix per row of the table (the gather clamps each pair into range). -/
def pick {α : Type} (x : S2048x50000.Idx → α) (t : IVec S2048x2 32) : S2048.Idx → α :=
  Host.gather gather_S2048x50000_S2048x2_S2048_n_01_n_n_01_1_11 x t

/-- `min hi (max lo x)`, the bounds given by their f32 words. -/
def clip (lo hi : BitVec 32) (x : FVec F S2048 .f32) : FVec F S2048 .f32 :=
  minimumf (broadcastInDim S2048 ![] bcast_S_S2048 (constant S_ .f32 hi))
    (maximumf (broadcastInDim S2048 ![] bcast_S_S2048 (constant S_ .f32 lo)) x)

/-- Coefficient `k` of the seven, as a scalar. -/
def coef (k : Nat) (h : S7.Slices ![k] S1) (p : FVec F S7 .f32) : FVec F S_ .f32 :=
  shapeCast S_ (extractStridedSlice S1 ![k] (extractStridedSlice S7 ![0] p slices_S7_S7_0) h) shapeCasts_S1_S_

/-- One step of Horner's rule: `acc · x + c`. -/
def horner (x acc : FVec F S2048 .f32) (c : FVec F S_ .f32) : FVec F S2048 .f32 :=
  addf (mulf acc x) (broadcastInDim S2048 ![] bcast_S_S2048 c)

/-- The degree-6 polynomial with coefficients `p` (highest first) at `x`, by Horner's rule from 0. -/
def poly (p : FVec F S7 .f32) (x : FVec F S2048 .f32) : FVec F S2048 .f32 :=
  horner x (horner x (horner x (horner x (horner x (horner x (horner x
    (broadcastInDim S2048 ![] bcast_S_S2048 (constant S_ .f32 0x00000000#32))
    (coef 0 slices_S7_S1_0 p)) (coef 1 slices_S7_S1_1 p)) (coef 2 slices_S7_S1_2 p)) (coef 3 slices_S7_S1_3 p))
    (coef 4 slices_S7_S1_4 p)) (coef 5 slices_S7_S1_5 p)) (coef 6 slices_S7_S1_6 p)

/-- The numerator `30 · p(clip(clip(x[y', y''])))`, row by row. -/
def numer (x : FVec F S2048x50000 .f32) (lbl : IVec S2048 32) (p : FVec F S7 .f32) : FVec F S2048 .f32 :=
  mulf (broadcastInDim S2048 ![] bcast_S_S2048 (constant S_ .f32 0x41F00000#32))
    (poly p (clip 0xBF800000#32 0x3F800000#32 (clip 0xBF7FFFFE#32 0x3F7FFFFE#32 (pick x (pairs lbl lbl)))))

/-- `exp (30 · x)`, entry by entry, as the host computes it. -/
def expScaled (x : FVec F S2048x50000 .f32) : FVec F S2048x50000 .f32 :=
  Host.exp (mulf (broadcastInDim S2048x50000 ![] bcast_S_S2048x50000 (constant S_ .f32 0x41F00000#32)) x)

/-- The same of a vector of 2048 logits. -/
def expScaledRow (v : FVec F S2048 .f32) : FVec F S2048 .f32 :=
  Host.exp (mulf (broadcastInDim S2048 ![] bcast_S_S2048 (constant S_ .f32 0x41F00000#32)) v)

/-- The row sums `Σ_j exp (30 · x[r, j])`, by the host's reduction from 0. -/
def rowSums (x : FVec F S2048x50000 .f32) : FVec F S2048 .f32 :=
  Host.reduceAdd (expScaled x) (constant S_ .f32 0x00000000#32) reducesTo_S2048x50000_S2048_d1 h_S_

/-- The row numbers 0 … 2047 as index words. -/
def rowNumbers : IVec S2048 32 := iotaInDim S2048 32 0

/-- The loss from the numerators and the sums over the other classes. -/
def lossOf (a others : FVec F S2048 .f32) : FVec F S_ .f32 :=
  Host.negf (Host.divf
    (Host.reduceAdd (subf a (Host.log (addf (Host.exp a) others))) (constant S_ .f32 0x00000000#32) reducesTo_S2048_S_d0 h_S_)
    (constant S_ .f32 0x45000000#32))

/-- The reference's result: the target term taken out of the matrix of exponentials. -/
def refLoss (x : FVec F S2048x50000 .f32) (lbl : IVec S2048 32) (p : FVec F S7 .f32) : FVec F S_ .f32 :=
  lossOf (numer x lbl p) (subf (rowSums x) (pick (expScaled x) (pairs rowNumbers lbl)))

/-- The kernel program's result from the row sums `s` it is given: the target logit gathered, then exponentiated. -/
def kerLoss (x : FVec F S2048x50000 .f32) (lbl : IVec S2048 32) (p : FVec F S7 .f32) (s : FVec F S2048 .f32) : FVec F S_ .f32 :=
  lossOf (numer x lbl p) (subf s (expScaledRow (pick x (pairs rowNumbers lbl))))

/-- A gather of the entrywise exponentials is the entrywise exponential of the gather: both read `x` at the index the
    table gives, and the broadcast constant 30 is the same number at every index. -/
theorem gather_expScaled (x : FVec F S2048x50000 .f32) (t : IVec S2048x2 32) :
    pick (expScaled x) t = expScaledRow (pick x t) := by
  unfold expScaled expScaledRow
  rw [broadcastInDim_constant, broadcastInDim_constant]
  rfl

/-- So with the reference's row sums the kernel program's result is the reference's. -/
theorem kerLoss_rowSums (x : FVec F S2048x50000 .f32) (lbl : IVec S2048 32) (p : FVec F S7 .f32) :
    kerLoss x lbl p (rowSums x) = refLoss x lbl p := by
  unfold kerLoss refLoss
  rw [gather_expScaled]

/-- The row sums as a [2048, 1] column. -/
def sumColumn (x : FVec F S2048x50000 .f32) : FVec F S2048x1 .f32 :=
  shapeCast S2048x1 (rowSums x) (by decide)

/-- Read back as a vector the column is the row sums. -/
theorem shapeCast_sumColumn (x : FVec F S2048x50000 .f32) (h : S2048x1.ShapeCasts S2048) :
    shapeCast S2048 (sumColumn x) h = rowSums x :=
  shapeCast_shapeCast _ _ _

end Cert.MarginLoss

end
-- ==== Proof.RefValue.lean ====
/-
  What the reference's line of operations leaves in its result buffer: the loss `refLoss` of the three argument arrays,
  and the argument arrays themselves untouched.
-/
import proofs.«110019_j21844203667631_1_alg».proof.Proof.RefRun
import proofs.«110019_j21844203667631_1_alg».proof.Proof.Spec

noncomputable section

namespace Cert.ReferenceIdeal.Line

open Idealize.ShloMosaic Idealize.ShloMosaic.StableHlo Idealize.SL.Sem
open Cert.ReferenceIdeal Cert.ReferenceIdeal.Facts₀ Cert.MarginLoss

variable {F : FTy → Type} [FloatOps F]

attribute [local irreducible] Host.reduceAdd Host.gather Host.exp Host.log concatenate in
set_option maxRecDepth 16384 in
set_option maxHeartbeats 4000000 in
/-- The fold of the 111 operations read at the result buffer is the loss of the contents of the three argument buffers:
    each operation's result is its function of its operands' buffers, and no later operation writes them. -/
theorem result_eq (V : Valuation τ sig (Elt F)) :
    after ops V (Proc.devRef .tc main_v45)
      = refLoss (V (Proc.devRef .tc main_arg0)) (V (Proc.devRef .tc main_arg1)) (V (Proc.devRef .tc main_arg2)) := by
  after_results_simp
  unfold refLoss lossOf numer poly horner coef clip rowSums expScaled pick pairs wrap rowNumbers
  rfl

set_option maxHeartbeats 4000000 in
/-- No operation writes the logits: they end as launched. -/
theorem arg0_eq (V : Valuation τ sig (Elt F)) :
    after ops V (Proc.devRef .tc main_arg0) = V (Proc.devRef .tc main_arg0) := by
  after_results_simp

set_option maxHeartbeats 4000000 in
/-- No operation writes the labels. -/
theorem arg1_eq (V : Valuation τ sig (Elt F)) :
    after ops V (Proc.devRef .tc main_arg1) = V (Proc.devRef .tc main_arg1) := by
  after_results_simp

set_option maxHeartbeats 4000000 in
/-- No operation writes the coefficients. -/
theorem arg2_eq (V : Valuation τ sig (Elt F)) :
    after ops V (Proc.devRef .tc main_arg2) = V (Proc.devRef .tc main_arg2) := by
  after_results_simp

end Cert.ReferenceIdeal.Line

end
-- ==== Proof.KerBlocks.lean ====
/-
  The kernel's output array after the region: the [2048, 1] column of row sums `Σ_j exp (30 · x[r, j])`.

  The region runs 64 grid points. Point `t` is given rows `32 t … 32 t + 31` of the logits, whole ([32, 50000]), and writes
  back rows `32 t … 32 t + 31` of the [2048, 1] result. Its body multiplies the block by 30, exponentiates, sums each row
  over its 50000 lanes from the accumulator 0 and lays the 32 sums out as a column. At the extended reals that lane sum is
  `Σ_k exp (30 · blk[p, k])` with nothing added, and the host's reduction of the reference is `0 + Σ_k exp (30 · x[r, k])`:
  the same number for `r = 32 t + p`, since entry `(p, k)` of the block is entry `(32 t + p, k)` of the array. So what point `t`
  writes back is block `t` of the column of the reference's row sums (`flushed_eq`), the 64 blocks cover the column
  (`cover`), and the array ends as that column (`final`).
-/
import proofs.«110019_j21844203667631_1_alg».proof.Proof.Gen.KernelIdeal.Frame
import proofs.«110019_j21844203667631_1_alg».proof.Proof.Gen.ReferenceIdeal
import proofs.«110019_j21844203667631_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Facts₀
open Idealize.ShloMosaic.Pipeline (Dat)
open Cert.MarginLoss

/-! ## The two sums, index by index -/

/-- The reference's row sum at row `r`: the initial 0 adds nothing. -/
theorem rowSums_apply (x : FVec Ideal Cert.ReferenceIdeal.S2048x50000 .f32) (r : Fin 2048) :
    rowSums x (ix1 r) = ∑ k : Fin 50000, Ideal.exp (Ideal.ofBits .f32 0x41F00000#32 * x (ix2 r k)) := by
  unfold rowSums Host.reduceAdd
  show Ideal.hostReduceAdd _ _ _ (ix1 r) = _
  rw [Ideal.hostReduceAdd_single _ (by decide : Cert.ReferenceIdeal.S2048x50000.Reduces [1] Cert.ReferenceIdeal.S2048)]
  unfold expScaled
  rw [broadcastInDim_constant]
  show Ideal.ofBits .f32 0x00000000#32 + _ = _
  rw [Ideal.ofBits_zero_f32, zero_add]
  refine Finset.sum_congr rfl fun k _ => ?_
  show Ideal.exp (Ideal.ofBits .f32 0x41F00000#32 * x _) = _
  exact congrArg (fun i => Ideal.exp (Ideal.ofBits .f32 0x41F00000#32 * x i))
    (funext fun a => Fin.ext (by match a with | ⟨0, _⟩ => rfl | ⟨1, _⟩ => rfl))

/-- The column of row sums at `(r, 0)` is the row sum at `r`. -/
theorem sumColumn_apply (x : FVec Ideal Cert.ReferenceIdeal.S2048x50000 .f32) (r : Fin 2048) :
    sumColumn x (ix2 r (0 : Fin 1)) = rowSums x (ix1 r) := by
  unfold sumColumn
  refine shapeCast_apply _ _ (ix2 r (0 : Fin 1)) (ix1 r) ?_
  rw [Shape.rowMajor_val_one, Shape.rowMajor_val_two]
  show r.val = r.val * 1 + 0
  omega

/-- The body's stored value at `(p, 0)`: the lane sum of row `p` of `exp (30 · blk)`. -/
theorem pay_apply (blk : Vec Ideal S32x50000 .f32) (p : Fin 32) :
    k0_pay1 (F := Ideal) blk (ix2 p (0 : Fin 1)) = ∑ k : Fin 50000, Ideal.exp (Ideal.ofBits .f32 0x41F00000#32 * blk (ix2 p k)) := by
  unfold k0_pay1
  dsimp only
  refine (shapeCast_apply _ _ (ix2 p (0 : Fin 1)) (ix1 p) ?_).trans ?_
  · rw [Shape.rowMajor_val_one, Shape.rowMajor_val_two]
    show p.val = p.val * 1 + 0
    omega
  refine (Ideal.multiReduction_add_single _ _ _ _ _ (ix1 p)).trans ?_
  refine Finset.sum_congr rfl fun k _ => ?_
  show Ideal.exp (Ideal.ofBits .f32 0x41F00000#32 * blk _) = _
  exact congrArg (fun i => Ideal.exp (Ideal.ofBits .f32 0x41F00000#32 * blk i))
    (funext fun a => Fin.ext (by match a with | ⟨0, _⟩ => rfl | ⟨1, _⟩ => rfl))

/-! ## The blocks -/

variable (m : (ℓ : Loc nD τ sig) → Buf (Elt Ideal) ℓ)

theorem hz : (![0, 0] : Fin 2 → Nat) = fun _ => 0 := funext fun a => by fin_cases a <;> rfl

/-- The printed index maps over the 64 points: at point `t` both windows are at block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Rows against rows: if row `p` of a [32, 50000] block is row `32 t + p` of the matrix `x`, the body's stored value at
    `(p, 0)` is the column of `x`'s row sums at `(32 t + p, 0)`. -/
theorem block_sum (x : FVec Ideal Cert.ReferenceIdeal.S2048x50000 .f32) (blk : Vec Ideal S32x50000 .f32) (p : Fin 32) (r : Fin 2048)
    (hblk : ∀ k : Fin 50000, blk (ix2 p k) = x (ix2 r k)) :
    k0_pay1 (F := Ideal) blk (ix2 p (0 : Fin 1)) = sumColumn x (ix2 r (0 : Fin 1)) := by
  rw [pay_apply, sumColumn_apply, rowSums_apply]
  exact Finset.sum_congr rfl fun k _ => by rw [hblk k]

/-- Entry `(p, k)` of the logits' block at point `t` is entry `(32 t + p, k)` of the logits. -/
theorem emb_in (t : Fin cfg0.N) (p : Fin 32) (k : Fin 50000) (r : Fin 2048) (hr : r.val = 32 * t.val + p.val) :
    ((cfg0.win 0).blk t).view.emb (ix2 p k) = ix2 r k := by
  obtain ⟨e0, e1, e2, e3⟩ := idx_facts t
  funext a; apply Fin.ext
  match a with
  | ⟨0, _⟩ => show win0_0.index t (0 : Fin 2) * 32 + 1 * p.val = r.val; omega
  | ⟨1, _⟩ => show win0_0.index t (1 : Fin 2) * 50000 + 1 * k.val = k.val; omega

/-- Entry `(p, 0)` of the result's block at point `t` is entry `(32 t + p, 0)` of the result. -/
theorem emb_out (t : Fin cfg0.N) (p : Fin 32) (r : Fin 2048) (hr : r.val = 32 * t.val + p.val) :
    ((cfg0.win 1).blk t).view.emb (ix2 p (0 : Fin 1)) = ix2 r (0 : Fin 1) := by
  obtain ⟨e0, e1, e2, e3⟩ := idx_facts t
  funext a; apply Fin.ext
  match a with
  | ⟨0, _⟩ => show win0_1.index t (0 : Fin 2) * 32 + 1 * p.val = r.val; omega
  | ⟨1, _⟩ => show win0_1.index t (1 : Fin 2) * 1 + 1 * 0 = 0; omega

/-- The logits' block at a point, read at an entry, is the logits as the region finds them at the embedded index. -/
theorem iblk_apply (c : Dev nD) (t : Fin cfg0.N) (y : S32x50000.Idx) :
    iblk m c 0 t y = V m c main_arg0 (((cfg0.win 0).blk t).view.emb y) := rfl

set_option maxHeartbeats 1000000 in
/-- What point `t` writes back is block `t` of the column of the reference's row sums of the logits as the region finds
    them. -/
theorem flushed_eq (c : Dev nD) (t : Fin cfg0.N) :
    (dats m 0 c).flushed 1 t = ((cfg0.win 1).blk t).view.read (Elt Ideal) (sumColumn (F := Ideal) (V m c main_arg0)) := by
  show (cfg0.win 1).cut (grid0.coords t) ((dats m 0 c).after 1 t) = _
  rw [after0_1]
  unfold out0_1
  rw [View.canon_unit_zero hz]
  simp only [View.ld_unit_zero (S := S32x50000) hz]
  funext y
  obtain ⟨p, q, rfl⟩ : ∃ (p : Fin 32) (q : Fin 1), y = ix2 p q := ⟨y 0, y 1, eq_ix2 y⟩
  obtain rfl : q = 0 := Subsingleton.elim q 0
  have ht : t.val < 64 := by have h := t.isLt; have hN : cfg0.N = 64 := N_0; omega
  have hr : 32 * t.val + p.val < 2048 := by have := p.isLt; omega
  show k0_pay1 (iblk m c 0 t) (ix2 p (0 : Fin 1))
      = sumColumn (F := Ideal) (V m c main_arg0) (((cfg0.win 1).blk t).view.emb (ix2 p (0 : Fin 1)))
  rw [emb_out t p ⟨32 * t.val + p.val, hr⟩ rfl]
  refine block_sum (V m c main_arg0) (iblk m c 0 t) p ⟨32 * t.val + p.val, hr⟩ fun k => ?_
  rw [iblk_apply m c t (ix2 p k), emb_in t p k ⟨32 * t.val + p.val, hr⟩ rfl]

/-- An index of the column is in point `t`'s block iff its row is among the block's 32 rows. -/
theorem mem_blk (t : Fin cfg0.N) (i : S2048x1.Idx) :
    i ∈ ((cfg0.win 1).blk t).view.set ↔ ∀ a : Fin 2, win0_1.index t a * S32x1.size a ≤ (i a).val ∧ (i a).val < win0_1.index t a * S32x1.size a + S32x1.size a := by
  show i ∈ ((View.whole main_v37).slice (win0_1.rect t)).set ↔ _
  rw [View.set_slice_whole, Rect.mem_set_unit]
  exact Iff.rfl

/-- Row `r` is written back by point `r / 32`: the 64 blocks cover the column. -/
theorem cover (i : S2048x1.Idx) : ∃ t : Fin cfg0.N, (cfg0.win 1).flush t = true ∧ i ∈ ((cfg0.win 1).blk t).view.set := by
  have hi0 : (i 0).val < 2048 := (i 0).isLt
  have hi1 : (i 1).val < 1 := (i 1).isLt
  have hN : cfg0.N = 64 := N_0
  let t : Fin cfg0.N := ⟨(i 0).val / 32, by omega⟩
  obtain ⟨e0, e1, e2, e3⟩ := idx_facts t
  refine ⟨t, flush0_1 t, ?_⟩
  rw [mem_blk]
  intro a
  match a with
  | ⟨0, _⟩ => show win0_1.index t (0 : Fin 2) * 32 ≤ (i 0).val ∧ (i 0).val < win0_1.index t (0 : Fin 2) * 32 + 32
              have : t.val = (i 0).val / 32 := rfl
              omega
  | ⟨1, _⟩ => show win0_1.index t (1 : Fin 2) * 1 ≤ (i 1).val ∧ (i 1).val < win0_1.index t (1 : Fin 2) * 1 + 1; omega

/-- The output array after the region is the column of the reference's row sums of the logits. -/
theorem final (c : Dev nD) : (dats m 0 c).arrAt 1 cfg0.N = sumColumn (F := Ideal) (V m c main_arg0) :=
  (dats m 0 c).arrAt_eq_of_cover 1 (sumColumn (F := Ideal) (V m c main_arg0)) (fun t _ => flushed_eq m c t) cover

end Cert.KernelIdeal.Blocks

end
-- ==== Proof.KerHost.lean ====
/-
  The host operations of the kernel's program around its one region, read as values.

  Before the region the program computes, from the argument arrays, the numerators `30 · p(clip(clip(x[y', y''])))` and
  the target terms `exp (30 · x[r, y''])` (the logit gathered first, then exponentiated): 99 operations, the two clips
  and Horner's rule run on their calls' own buffers. After the region eleven operations read the region's [2048, 1]
  output as a vector of 2048 row sums, subtract the target terms, and finish the loss. None of it is opened here beyond
  naming each buffer's value: the loss's last lines are the one function `lossOf` of the numerators and the other-class sums.
-/
import proofs.«110019_j21844203667631_1_alg».proof.Proof.Gen.KernelIdeal.Frame
import proofs.«110019_j21844203667631_1_alg».proof.Proof.Gen.ReferenceIdeal
import proofs.«110019_j21844203667631_1_alg».proof.Proof.Spec
import Idealize.ShloMosaic.Lib.StableHlo.Run

set_option maxRecDepth 16384

noncomputable section

namespace Cert.KernelIdeal.Host

open Idealize.ShloMosaic Idealize.ShloMosaic.TcCoe Idealize.ShloMosaic.StableHlo Idealize.SL.Sem
open Cert.KernelIdeal Cert.KernelIdeal.Gen Cert.KernelIdeal.Facts₀
open Cert.MarginLoss

variable {F : FTy → Type} [FloatOps F]
variable (m : (ℓ : Loc nD τ sig) → Buf (Elt F) ℓ)

attribute [local irreducible] Host.reduceAdd Host.gather Host.exp Host.log concatenate in
set_option maxHeartbeats 4000000 in
/-- The numerators, as the region finds them. -/
theorem numer_eq (c : Dev nD) :
    V m c main_v19 = numer (m ((c : Thread nD τ).loc main_arg0)) (m ((c : Thread nD τ).loc main_arg1)) (m ((c : Thread nD τ).loc main_arg2)) := by
  show StableHlo.after (List.flatten [hostOps0, hostOps0_1, hostOps0_2, hostOps0_3, hostOps0_4, hostOps0_5]) (fun b => m (c, b)) (Proc.devRef .tc main_v19) = _
  simp only [hostOps0, hostOps0_1, hostOps0_2, hostOps0_3, hostOps0_4, hostOps0_5, List.flatten_cons, List.flatten_nil, List.append_nil, List.cons_append, List.nil_append]
  after_results_simp
  unfold numer poly horner coef clip pick pairs wrap
  rfl

attribute [local irreducible] Host.reduceAdd Host.gather Host.exp Host.log concatenate in
set_option maxHeartbeats 4000000 in
/-- The target terms, as the region finds them: the logit at (row, wrapped label) gathered, scaled by 30, exponentiated. -/
theorem target_eq (c : Dev nD) :
    V m c main_v36 = expScaledRow (pick (m ((c : Thread nD τ).loc main_arg0)) (pairs rowNumbers (m ((c : Thread nD τ).loc main_arg1)))) := by
  show StableHlo.after (List.flatten [hostOps0, hostOps0_1, hostOps0_2, hostOps0_3, hostOps0_4, hostOps0_5]) (fun b => m (c, b)) (Proc.devRef .tc main_v36) = _
  simp only [hostOps0, hostOps0_1, hostOps0_2, hostOps0_3, hostOps0_4, hostOps0_5, List.flatten_cons, List.flatten_nil, List.append_nil, List.cons_append, List.nil_append]
  after_results_simp
  unfold expScaledRow pick pairs wrap rowNumbers
  rfl

attribute [local irreducible] Host.reduceAdd Host.gather Host.exp Host.log in
set_option maxHeartbeats 2000000 in
/-- The result buffer after the eleven operations that follow the region: the loss of the numerators and of the region's
    output, read as a vector, less the target terms. -/
theorem tail_eq (c : Dev nD) :
    Pipeline.afterTail₀ cfgs (dats m) 0 (V0 m) [hostOps1] c main_v46
      = lossOf (V m c main_v19) (subf (shapeCast S2048 ((dats m 0 c).arrAt 1 cfg0.N) Facts₀.shapeCasts_S2048x1_S2048) (V m c main_v36)) := by
  unfold Pipeline.afterTail₀
  show StableHlo.after hostOps1 _ (Proc.devRef .tc main_v46) = _
  after_results
  rw [Pipeline.withArrays_of_ne spec0 c (V0 m c) _ main_v19 (by decide),
    Pipeline.withArrays_of_ne spec0 c (V0 m c) _ main_v36 (by decide),
    Pipeline.withArrays_arr spec0 launch0.win.arr_inj c (V0 m c) _ 1]
  unfold lossOf
  rfl

end Cert.KernelIdeal.Host

end
-- ==== Proof.KerValue.lean ====
/-
  The kernel's program at the extended reals: it ends with the reference's loss in its result buffer.

  The frame run leaves the region's output array at what the 64 write-backs made of it, the column of row sums
  `Σ_j exp (30 · x[r, j])`, and every other buffer as the eleven operations after the region leave it. Read as a vector the
  column is the reference's row sums; the numerators are the same function of the arguments in both programs; and the
  target term `exp (30 · x[r, y''])`, gathered then exponentiated, is the reference's entry of the matrix of exponentials
  (a gather commutes with an entrywise map). So the result is `refLoss` of the arguments, which end unchanged.
-/
import proofs.«110019_j21844203667631_1_alg».proof.Proof.KerBlocks
import proofs.«110019_j21844203667631_1_alg».proof.Proof.KerHost

set_option maxRecDepth 16384

noncomputable section

namespace Cert.KernelIdeal.Loss

open Idealize.ShloMosaic Idealize.ShloMosaic.TcCoe Idealize.SL.Sem
open Cert.KernelIdeal Cert.KernelIdeal.Gen Cert.KernelIdeal.Facts₀
open Cert.MarginLoss

variable (m : (ℓ : Loc nD τ sig) → Buf (Elt Ideal) ℓ) (ρ : Dev nD → PrngReg)

/-- The result buffer after the program's last operation holds the reference's loss of the launch contents of the three
    argument arrays. -/
theorem result_eq (c : Dev nD) :
    Pipeline.afterTail₀ cfgs (dats m) 0 (V0 m) [hostOps1] c main_v46
      = refLoss (F := Ideal) (m ((c : Thread nD τ).loc main_arg0)) (m ((c : Thread nD τ).loc main_arg1)) (m ((c : Thread nD τ).loc main_arg2)) := by
  rw [Host.tail_eq, Host.numer_eq, Host.target_eq, Blocks.final, V_main_arg0]
  rw [shapeCast_sumColumn]
  exact kerLoss_rowSums _ _ _

set_option backward.isDefEq.respectTransparency.types false in
/-- Every weakly fair execution of the kernel's program terminates with the reference's loss of the arguments in its result
    buffer and the arguments unchanged. -/
theorem run : θ_run defs (onTc (τ := τ) (main (F := Ideal))) ⟨m, fun _ => 0, ρ⟩ fun r => ∀ c : Dev nD,
      r.2.mem ((c.tc : Thread nD τ).loc main_v46)
        = refLoss (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v46 (Pipeline.mem_restRefs_of main_v46 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Loss

end
-- ==== Proof.lean ====
/-
  The certificate: a margin-softmax loss whose row sums `Σ_j exp (30 · x[r, j])` a kernel computes 32 rows at a time,
  against the same loss with the sums taken by one host reduction.

  The two programs compute the numerators `30 · p(clip(clip(x[y', y''])))` by the same operations. They differ in two
  places. The reference forms the matrix `exp (30 · x)`, sums its rows on the host and takes the target entries out of it by
  a gather; the kernel's program gathers the target logits first and exponentiates the 2048 of them, and leaves the row
  sums to a kernel over 64 blocks of 32 rows. At the extended reals a gather commutes with the entrywise `exp (30 · )`
  (it reads its operand at an index that only the index table decides, clamping included, so no range is asked of the
  labels), and a block's lane sums from the accumulator 0 are the host's row sums from the initial value 0. Nothing else
  of real arithmetic is used, so the precondition (finite inputs) is never opened.

  The three frames: the kernel's two programs by their generated frame runs; the reference, which has no kernel, by its
  straight-line run with the result dropped. The idealization rewrote no operation, so `preserves` is `True`.
-/
import proofs.«110019_j21844203667631_1_alg».proof.Defs
import proofs.«110019_j21844203667631_1_alg».proof.Proof.Gen.Kernel
import proofs.«110019_j21844203667631_1_alg».proof.Proof.Gen.Kernel.Skeleton
import proofs.«110019_j21844203667631_1_alg».proof.Proof.Gen.Kernel.Launch
import proofs.«110019_j21844203667631_1_alg».proof.Proof.Gen.Kernel.Points
import proofs.«110019_j21844203667631_1_alg».proof.Proof.Gen.Kernel.Frame
import proofs.«110019_j21844203667631_1_alg».proof.Proof.Gen.KernelIdeal
import proofs.«110019_j21844203667631_1_alg».proof.Proof.Gen.KernelIdeal.Skeleton
import proofs.«110019_j21844203667631_1_alg».proof.Proof.Gen.KernelIdeal.Launch
import proofs.«110019_j21844203667631_1_alg».proof.Proof.Gen.KernelIdeal.Points
import proofs.«110019_j21844203667631_1_alg».proof.Proof.Gen.KernelIdeal.Frame
import proofs.«110019_j21844203667631_1_alg».proof.Proof.Gen.ReferenceIdeal
import proofs.«110019_j21844203667631_1_alg».proof.Proof.Gen.Pre_finite_inputs
import proofs.«110019_j21844203667631_1_alg».proof.Proof.RefValue
import proofs.«110019_j21844203667631_1_alg».proof.Proof.KerValue
import Idealize.ShloMosaic.Adequacy
import Idealize.ShloMosaic.Init

noncomputable section

namespace Cert.Proof

open Idealize.ShloMosaic Idealize.SL.Sem

/-- The word-level kernel program runs and keeps its arguments: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run with its result named: it ends with `refLoss` of its arguments, which it keeps. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v45)
          = Cert.MarginLoss.refLoss (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun _ h c => ⟨(h c Cert.ReferenceIdeal.main_v45).trans (Cert.ReferenceIdeal.Line.result_eq _),
      (h c Cert.ReferenceIdeal.main_arg0).trans (Cert.ReferenceIdeal.Line.arg0_eq _),
      (h c Cert.ReferenceIdeal.main_arg1).trans (Cert.ReferenceIdeal.Line.arg1_eq _),
      (h c Cert.ReferenceIdeal.main_arg2).trans (Cert.ReferenceIdeal.Line.arg2_eq _)⟩)
    (Cert.ReferenceIdeal.Line.run (F := Ideal) m ρ)

/-- The reference runs and keeps its arguments: that run with the result dropped. -/
theorem frame_reference : Cert.frame_ReferenceIdeal := fun m ρ _ =>
  (θ_run Cert.ReferenceIdeal.defs _ _).mono (fun _ h c => (h c).2) (reference_run m ρ)

/-- From memories that agree on the arguments both programs end with the reference's loss of those arguments. -/
theorem algebraic : Cert.algebraic_KernelIdeal_ReferenceIdeal := by
  intro m ρ m' ρ' _ hagree
  refine ⟨_, Cert.KernelIdeal.Loss.run m ρ, ?_⟩
  refine (θ_run Cert.ReferenceIdeal.defs _ _).mono (fun _ h c => ⟨(h c).1.trans ?_, (h c).2⟩) (reference_run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
